-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x576x7 : Shape := ⟨3, ![64, 576, 7]⟩
abbrev S4096x4096 : Shape := ⟨2, ![4096, 4096]⟩
abbrev S_ : Shape := ⟨0, ![]⟩

class Facts : Prop where
  bcast_S_S64x576x7 : S_.BroadcastsInDim S64x576x7 (![] : Fin 0 → Fin S64x576x7.rank)
  reducesTo_S64x576x7_S_d0_1_2 : S64x576x7.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S64x576x7 .f32) (main_arg1 : FVec F S4096x4096 .f32) : IVec S_ 1 :=
  let main_v0 : FVec F S64x576x7 .f32 := Host.absf main_arg0
  let main_cst : FVec F S_ .f32 := constant S_ .f32 0x7F800000#32
  let main_v1 : FVec F S64x576x7 .f32 := broadcastInDim S64x576x7 ![] bcast_S_S64x576x7 main_cst
  let main_v2 : IVec S64x576x7 1 := cmpf .olt main_v0 main_v1
  let main_c : IVec S_ 1 := constantI S_ 1 1#1
  let main_v3 : IVec S_ 1 := (fun x v => Host.reduce IntOp.andi x v reducesTo_S64x576x7_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S64x576x7 : Shape := ⟨3, ![64, 576, 7]⟩
abbrev S4096x4096 : Shape := ⟨2, ![4096, 4096]⟩
abbrev S36864x7 : Shape := ⟨2, ![36864, 7]⟩
abbrev S7x4096 : Shape := ⟨2, ![7, 4096]⟩
abbrev S36864x4096 : Shape := ⟨2, ![36864, 4096]⟩
abbrev S1024x7 : Shape := ⟨2, ![1024, 7]⟩
abbrev S1024x4096 : Shape := ⟨2, ![1024, 4096]⟩
abbrev S64x576x4096 : Shape := ⟨3, ![64, 576, 4096]⟩

abbrev nBuf : Space → Nat
  | .hbm => 6
  | .vmem => 5
  | .smem => 0
  | _ => 0

abbrev bufTy : (tb : Table) → Fin (tcTables nBuf tb) → BufTy
  | .hbm, ⟨0, _⟩ => ⟨S64x576x7, .f32⟩
  | .hbm, ⟨1, _⟩ => ⟨S4096x4096, .f32⟩
  | .hbm, ⟨2, _⟩ => ⟨S36864x7, .f32⟩
  | .hbm, ⟨3, _⟩ => ⟨S7x4096, .f32⟩
  | .hbm, ⟨4, _⟩ => ⟨S36864x4096, .f32⟩
  | .hbm, ⟨5, _⟩ => ⟨S64x576x4096, .f32⟩
  | .local _ .vmem, ⟨0, _⟩ => ⟨S1024x7, .f32⟩
  | .local _ .vmem, ⟨1, _⟩ => ⟨S1024x7, .f32⟩
  | .local _ .vmem, ⟨2, _⟩ => ⟨S7x4096, .f32⟩
  | .local _ .vmem, ⟨3, _⟩ => ⟨S1024x4096, .f32⟩
  | .local _ .vmem, ⟨4, _⟩ => ⟨S1024x4096, .f32⟩
  | _, _ => ⟨S64x576x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x576x7_S36864x7 : S64x576x7.ShapeCasts S36864x7
  slices_S4096x4096_S7x4096_0_0 : S4096x4096.Slices ![0, 0] S7x4096
  inb_S1024x7_S1024x7_0_0 : ∀ a, (![0, 0] : Fin 2 → Nat) a + S1024x7.size a ≤ S1024x7.size a
  h_S1024x7 : 0 < S1024x7.numel
  shapeCasts_S1024x7_S1024x7 : S1024x7.ShapeCasts S1024x7
  bitsLt_bf16_f32 : FTy.bits .bf16 < FTy.bits .f32
  inb_S7x4096_S7x4096_0_0 : ∀ a, (![0, 0] : Fin 2 → Nat) a + S7x4096.size a ≤ S7x4096.size a
  h_S7x4096 : 0 < S7x4096.numel
  shapeCasts_S7x4096_S7x4096 : S7x4096.ShapeCasts S7x4096
  inb_S1024x4096_S1024x4096_0_0 : ∀ a, (![0, 0] : Fin 2 → Nat) a + S1024x4096.size a ≤ S1024x4096.size a
  h_S1024x4096 : 0 < S1024x4096.numel
  shapeCasts_S36864x4096_S64x576x4096 : S36864x4096.ShapeCasts S64x576x4096
  dot_S1024x7_S7x4096_S1024x4096_1_0_0_1_n_n_wf : DotDims.WF S1024x7 S7x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x7.size a ≤ S36864x7.size a
  hwx0_0 : ∀ i : grid0.Coords, EltTy.bits .f32 = 32 ∨ (Rect.block (s := S36864x7) S1024x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x4096.size a ≤ S7x4096.size a
  hwx0_1 : ∀ i : grid0.Coords, EltTy.bits .f32 = 32 ∨ (Rect.block (s := S7x4096) S7x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S36864x4096.size a
  hwx0_2 : ∀ i : grid0.Coords, EltTy.bits .f32 = 32 ∨ (Rect.block (s := S36864x4096) S1024x4096.size (cc0_transform_2 i) (hinb0_2 i)).WholeWords (EltTy.packing .f32)

variable [Facts₀]

def dot_S1024x7_S7x4096_S1024x4096_1_0_0_1_n_n : DotDims S1024x7 S7x4096 S1024x4096 where
  lhsContracting := [1]
  rhsContracting := [0]
  lhsNonContracting := [0]
  rhsNonContracting := [1]
  lhsBatch := []
  rhsBatch := []
  wf := dot_S1024x7_S7x4096_S1024x4096_1_0_0_1_n_n_wf

abbrev win0_0 : Pipeline.Window sig grid0 :=
  Pipeline.Window.ofSpec (Memref.whole main_v0) S1024x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S7x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x576x7 : Shape := ⟨3, ![64, 576, 7]⟩
abbrev S4096x4096 : Shape := ⟨2, ![4096, 4096]⟩
abbrev S7x4096 : Shape := ⟨2, ![7, 4096]⟩
abbrev S64x576x4096 : Shape := ⟨3, ![64, 576, 4096]⟩

abbrev nBuf : Space → Nat
  | .hbm => 4
  | .vmem => 0
  | .smem => 0
  | _ => 0

abbrev bufTy : (tb : Table) → Fin (tcTables nBuf tb) → BufTy
  | .hbm, ⟨0, _⟩ => ⟨S64x576x7, .f32⟩
  | .hbm, ⟨1, _⟩ => ⟨S4096x4096, .f32⟩
  | .hbm, ⟨2, _⟩ => ⟨S7x4096, .f32⟩
  | .hbm, ⟨3, _⟩ => ⟨S64x576x4096, .f32⟩
  | _, _ => ⟨S64x576x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  slices_S4096x4096_S7x4096_0_0 : S4096x4096.Slices ![0, 0] S7x4096
  dot_S64x576x7_S7x4096_S64x576x4096_2_0_01_1_n_n_wf : DotDims.WF S64x576x7 S7x4096 S64x576x4096 [2] [0] [0, 1] [1] [] []

variable [Facts₀]

def dot_S64x576x7_S7x4096_S64x576x4096_2_0_01_1_n_n : DotDims S64x576x7 S7x4096 S64x576x4096 where
  lhsContracting := [2]
  rhsContracting := [0]
  lhsNonContracting := [0, 1]
  rhsNonContracting := [1]
  lhsBatch := []
  rhsBatch := []
  wf := dot_S64x576x7_S7x4096_S64x576x4096_2_0_01_1_n_n_wf

class Facts : Prop extends Facts₀ where

variable [Facts]
-- ==== Proof.Spec.lean ====
/-
  The mathematics both programs compute, stated once with no program in sight.

  The input `x` is a [64, 576, 7] array and `a` a [4096, 4096] matrix of which only the first seven rows
  are ever read. The result at (b, t, h) is the seven-term sum  ∑ k < 7, x[b, t, k] · a[k, h]  on the
  extended reals. The kernel reaches it through a flattened [36864, 7] copy of `x` and a [7, 4096] copy of
  the first seven rows of `a`, as the plain rows-times-columns product `rowsTimes`, and folds the 36864
  rows back to [64, 576]; row b·576 + t of the flat array is row (b, t) of `x`.
-/
import Idealize.ShloMosaic.PureOps.Ideal
import Idealize.ShloMosaic.Lib.ValueIdx

noncomputable section

open scoped BigOperators

namespace Cert.MatSpec

open Idealize.ShloMosaic Idealize.ShloMosaic.ValueIdx

/-- Row `k` of the seven kept rows, as a row of the 4096-row matrix. -/
abbrev row7 (k : Fin 7) : Fin 4096 := ⟨k.val, by have := k.isLt; omega⟩

/-- The result both programs end with: at (b, t, h) the sum over k < 7 of x[b, t, k] · a[k, h]. -/
def project (x : (⟨3, ![64, 576, 7]⟩ : Shape).Idx → EReal) (a : (⟨2, ![4096, 4096]⟩ : Shape).Idx → EReal) :
    (⟨3, ![64, 576, 4096]⟩ : Shape).Idx → EReal :=
  fun i => ∑ k : Fin 7, x (ix3 (n0 := 64) (n1 := 576) (n2 := 7) (i 0) (i 1) k)
    * a (ix2 (n0 := 4096) (n1 := 4096) (row7 k) (i 2))

/-- The flat product: a [36864, 7] matrix times a [7, 4096] matrix, entry (r, h) the sum over k < 7 of
    X[r, k] · B[k, h]. -/
def rowsTimes (X : (⟨2, ![36864, 7]⟩ : Shape).Idx → EReal) (B : (⟨2, ![7, 4096]⟩ : Shape).Idx → EReal) :
    (⟨2, ![36864, 4096]⟩ : Shape).Idx → EReal :=
  fun j => ∑ k : Fin 7, X (ix2 (n0 := 36864) (n1 := 7) (j 0) k) * B (ix2 (n0 := 7) (n1 := 4096) k (j 1))

/-- The same product on a block of 1024 rows: what one grid point computes. -/
def rowsTimesBlock (X : (⟨2, ![1024, 7]⟩ : Shape).Idx → EReal) (B : (⟨2, ![7, 4096]⟩ : Shape).Idx → EReal) :
    (⟨2, ![1024, 4096]⟩ : Shape).Idx → EReal :=
  fun j => ∑ k : Fin 7, X (ix2 (n0 := 1024) (n1 := 7) (j 0) k) * B (ix2 (n0 := 7) (n1 := 4096) k (j 1))

/-- The flat row that holds row (b, t) of the three-axis array. -/
abbrev flatRow (b : Fin 64) (t : Fin 576) : Fin 36864 :=
  ⟨b.val * 576 + t.val, by have := b.isLt; have := t.isLt; omega⟩

/-- Folding the flat product back: if `X` is `x` with its two leading axes flattened and `B` the first seven rows of
    `a`, the flat product at row b·576 + t is the result at (b, t). -/
theorem rowsTimes_flat (x : (⟨3, ![64, 576, 7]⟩ : Shape).Idx → EReal) (a : (⟨2, ![4096, 4096]⟩ : Shape).Idx → EReal)
    (X : (⟨2, ![36864, 7]⟩ : Shape).Idx → EReal) (B : (⟨2, ![7, 4096]⟩ : Shape).Idx → EReal)
    (hX : ∀ (b : Fin 64) (t : Fin 576) (k : Fin 7), X (ix2 (flatRow b t) k) = x (ix3 b t k))
    (hB : ∀ (k : Fin 7) (h : Fin 4096), B (ix2 k h) = a (ix2 (row7 k) h))
    (b : Fin 64) (t : Fin 576) (h : Fin 4096) :
    rowsTimes X B (ix2 (flatRow b t) h) = project x a (ix3 b t h) := by
  unfold rowsTimes project
  refine Finset.sum_congr rfl fun k _ => ?_
  rw [← hX b t k, ← hB k h]

end Cert.MatSpec

end
-- ==== Proof.RefSide.lean ====
/-
  The reference's side. Its program slices the first seven rows off the matrix and contracts the last axis of
  the three-axis input against them; read at an index (b, t, h) that is the sum over k < 7 of
  x[b, t, k] · a[k, h], the specification's `project`.
-/
import proofs.«419999_j20418274525913_3_alg».proof.Proof.Gen.ReferenceIdeal.Read
import proofs.«419999_j20418274525913_3_alg».proof.Proof.Spec

noncomputable section

open scoped BigOperators

namespace Cert.RefSide

open Idealize.ShloMosaic Idealize.ShloMosaic.ValueIdx Cert.ReferenceIdeal Cert.ReferenceIdeal.Read Cert.MatSpec

/-- The left operand's index at output index `i` and contraction position `k` is (i₀, i₁, k). -/
theorem lidx_eq (i : S64x576x4096.Idx) (k : Fin 7) :
    lidx_main_v1 i k = ix3 (n0 := 64) (n1 := 576) (n2 := 7) (i 0) (i 1) k :=
  funext fun a => Fin.ext (by match a with | ⟨0, _⟩ => rfl | ⟨1, _⟩ => rfl | ⟨2, _⟩ => rfl)

/-- The sliced matrix at (k, i₂) is the whole matrix at row k, column i₂. -/
theorem ridx_eq (i : S64x576x4096.Idx) (k : Fin 7) :
    idx_main_v0 (ridx_main_v1 i k) = ix2 (n0 := 4096) (n1 := 4096) (row7 k) (i 2) :=
  funext fun a => Fin.ext (by match a with | ⟨0, _⟩ => rfl | ⟨1, _⟩ => rfl)

/-- The reference's result is `project` of its two arguments. -/
theorem result_eq (x : (⟨S64x576x7, .f32⟩ : BufTy).Contents (Elt Ideal)) (a : (⟨S4096x4096, .f32⟩ : BufTy).Contents (Elt Ideal)) :
    val_main_v1 (F := Ideal) x a = project x a := by
  funext i
  rw [val_main_v1_apply]
  unfold project
  refine Finset.sum_congr rfl fun k _ => ?_
  rw [val_main_v0_apply, lidx_eq, ridx_eq]

end Cert.RefSide

end
-- ==== Proof.Payload.lean ====
/-
  What one grid point computes. The body loads a block of 1024 rows of the flat input and the seven kept rows
  of the matrix, narrows both to bf16 (no change on the extended reals), and multiplies them into a zero
  accumulator: entry (r, h) of the stored block is the sum over k < 7 of X[r, k] · B[k, h].
-/
import proofs.«419999_j20418274525913_3_alg».proof.Proof.Gen.KernelIdeal.Skeleton
import proofs.«419999_j20418274525913_3_alg».proof.Proof.Spec
import Idealize.ShloMosaic.PureOps.Ideal.Laws
import Idealize.ShloMosaic.Lib.ValueIdx
import Idealize.ShloMosaic.Lib.Pipeline.Value

noncomputable section

open scoped BigOperators

namespace Cert.KernelSide

open Idealize.ShloMosaic Idealize.ShloMosaic.ValueIdx Cert.KernelIdeal Cert.KernelIdeal.Gen Cert.MatSpec

/-- The left operand's row is the output's row. -/
theorem lhs_axis0 (j : S1024x4096.Idx) (q : dot_S1024x7_S7x4096_S1024x4096_1_0_0_1_n_n.contr.Idx) :
    (dot_S1024x7_S7x4096_S1024x4096_1_0_0_1_n_n.lhsIdx j q 0).val = (j 0).val := by
  unfold DotDims.lhsIdx
  rw [dif_neg (show ¬(0 : Fin S1024x7.rank) ∈ dot_S1024x7_S7x4096_S1024x4096_1_0_0_1_n_n.lhsBatch by decide), dif_pos (show (0 : Fin S1024x7.rank) ∈ dot_S1024x7_S7x4096_S1024x4096_1_0_0_1_n_n.lhsNonContracting by decide)]
  rfl
/-- The left operand's column is the contraction position. -/
theorem lhs_axis1 (j : S1024x4096.Idx) (q : dot_S1024x7_S7x4096_S1024x4096_1_0_0_1_n_n.contr.Idx) :
    (dot_S1024x7_S7x4096_S1024x4096_1_0_0_1_n_n.lhsIdx j q 1).val = (q ⟨0, by decide⟩).val :=
  dot_S1024x7_S7x4096_S1024x4096_1_0_0_1_n_n.lhsIdx_val_of_single rfl j q
/-- The right operand's row is the contraction position. -/
theorem rhs_axis0 (j : S1024x4096.Idx) (q : dot_S1024x7_S7x4096_S1024x4096_1_0_0_1_n_n.contr.Idx) :
    (dot_S1024x7_S7x4096_S1024x4096_1_0_0_1_n_n.rhsIdx j q 0).val = (q ⟨0, by decide⟩).val :=
  dot_S1024x7_S7x4096_S1024x4096_1_0_0_1_n_n.rhsIdx_val_of_single rfl j q
/-- The right operand's column is the output's column. -/
theorem rhs_axis1 (j : S1024x4096.Idx) (q : dot_S1024x7_S7x4096_S1024x4096_1_0_0_1_n_n.contr.Idx) :
    (dot_S1024x7_S7x4096_S1024x4096_1_0_0_1_n_n.rhsIdx j q 1).val = (j 1).val := by
  unfold DotDims.rhsIdx
  rw [dif_neg (show ¬(1 : Fin S7x4096.rank) ∈ dot_S1024x7_S7x4096_S1024x4096_1_0_0_1_n_n.rhsBatch by decide), dif_pos (show (1 : Fin S7x4096.rank) ∈ dot_S1024x7_S7x4096_S1024x4096_1_0_0_1_n_n.rhsNonContracting by decide)]
  rfl

/-- The product into a zero accumulator, entry by entry, is the sum over the seven contraction positions. -/
theorem matmul_block (X : FVec Ideal S1024x7 .bf16) (B : FVec Ideal S7x4096 .bf16) (j : S1024x4096.Idx) :
    matmul (F := Ideal) dot_S1024x7_S7x4096_S1024x4096_1_0_0_1_n_n none X B (constant (F := Ideal) S1024x4096 .f32 0x00000000#32) j
      = ∑ k : Fin 7, X (ix2 (n0 := 1024) (n1 := 7) (j 0) k) * B (ix2 (n0 := 7) (n1 := 4096) k (j 1)) := by
  simp only [matmul]
  rw [Ideal.matmul_constant_zero_apply, ← Equiv.sum_comp (contrEquiv1 dot_S1024x7_S7x4096_S1024x4096_1_0_0_1_n_n 7 rfl rfl).symm]
  refine Finset.sum_congr rfl fun k _ => ?_
  have hk := contrEquiv1_symm_val dot_S1024x7_S7x4096_S1024x4096_1_0_0_1_n_n 7 rfl rfl k
  have el : dot_S1024x7_S7x4096_S1024x4096_1_0_0_1_n_n.lhsIdx j ((contrEquiv1 dot_S1024x7_S7x4096_S1024x4096_1_0_0_1_n_n 7 rfl rfl).symm k) = ix2 (n0 := 1024) (n1 := 7) (j 0) k := funext fun a => Fin.ext (by
    match a with
    | ⟨0, _⟩ => exact lhs_axis0 _ _
    | ⟨1, _⟩ => exact (lhs_axis1 _ _).trans hk)
  have er : dot_S1024x7_S7x4096_S1024x4096_1_0_0_1_n_n.rhsIdx j ((contrEquiv1 dot_S1024x7_S7x4096_S1024x4096_1_0_0_1_n_n 7 rfl rfl).symm k) = ix2 (n0 := 7) (n1 := 4096) k (j 1) := funext fun a => Fin.ext (by
    match a with
    | ⟨0, _⟩ => exact (rhs_axis0 _ _).trans hk
    | ⟨1, _⟩ => exact rhs_axis1 _ _)
  rw [el, er]

/-- The body's stored value is the block product of its two loads. -/
theorem payload_eq (x0 : Vec Ideal S1024x7 .f32) (x1 : Vec Ideal S7x4096 .f32) :
    k0_pay1 (F := Ideal) x0 x1 = rowsTimesBlock x0 x1 := by
  funext j
  unfold k0_pay1 rowsTimesBlock
  rw [shapeCast_self, shapeCast_self]
  exact matmul_block _ _ j

end Cert.KernelSide

end
-- ==== Proof.HostSide.lean ====
/-
  The arrays the region finds. Before the region the program flattens the [64, 576, 7] input to [36864, 7]
  (row b·576 + t of the flat array is row (b, t) of the input: the row-major positions agree) and cuts the first
  seven rows off the [4096, 4096] matrix.
-/
import proofs.«419999_j20418274525913_3_alg».proof.Proof.Gen.KernelIdeal.Frame
import proofs.«419999_j20418274525913_3_alg».proof.Proof.Spec
import Idealize.ShloMosaic.Lib.StableHlo.Run
import Idealize.ShloMosaic.Lib.Pipeline.Value

noncomputable section

namespace Cert.KernelSide

open Idealize.ShloMosaic Idealize.ShloMosaic.TcCoe Idealize.ShloMosaic.ValueIdx Idealize.SL.Sem Idealize.ShloMosaic.StableHlo
open Cert.KernelIdeal Cert.KernelIdeal.Gen Cert.MatSpec

variable (m : (ℓ : Loc nD τ sig) → Buf (Elt Ideal) ℓ)

/-- The flat [36864, 7] input as the region finds it. -/
abbrev flatIn (c : Dev nD) : S36864x7.Idx → EReal := V m c main_v0
/-- The seven kept rows of the matrix as the region finds them. -/
abbrev keptRows (c : Dev nD) : S7x4096.Idx → EReal := V m c main_v1

/-- The flat input the region finds is the reshape of the first argument. -/
theorem flatInput_eq (c : Dev nD) :
    flatIn m c
      = shapeCast S36864x7 (m ((c : Thread nD τ).loc main_arg0)) shapeCasts_S64x576x7_S36864x7 := by
  show StableHlo.after hostOps0 (fun b => m (c, b)) (Proc.devRef .tc main_v0) = _
  after_results
  rfl

/-- The seven rows the region finds are the slice of the second argument. -/
theorem keptRows_eq (c : Dev nD) :
    keptRows m c
      = extractStridedSlice S7x4096 ![0, 0] (m ((c : Thread nD τ).loc main_arg1)) slices_S4096x4096_S7x4096_0_0 := by
  show StableHlo.after hostOps0 (fun b => m (c, b)) (Proc.devRef .tc main_v1) = _
  after_results

/-- Row b·576 + t of the flat input is row (b, t) of the first argument. -/
theorem flatInput_apply (c : Dev nD) (b : Fin 64) (t : Fin 576) (k : Fin 7) :
    flatIn m c (ix2 (n0 := 36864) (n1 := 7) (flatRow b t) k)
      = m ((c : Thread nD τ).loc main_arg0) (ix3 (n0 := 64) (n1 := 576) (n2 := 7) b t k) := by
  rw [flatInput_eq]
  refine shapeCast_apply _ _ _ (ix3 (n0 := 64) (n1 := 576) (n2 := 7) b t k) ?_
  rw [Shape.rowMajor_val_three, Shape.rowMajor_val_two]
  rfl

/-- Row k of the seven kept rows is row k of the second argument. -/
theorem keptRows_apply (c : Dev nD) (k : Fin 7) (h : Fin 4096) :
    keptRows m c (ix2 (n0 := 7) (n1 := 4096) k h)
      = m ((c : Thread nD τ).loc main_arg1) (ix2 (n0 := 4096) (n1 := 4096) (row7 k) h) := by
  rw [keptRows_eq]
  exact extractStridedSlice_apply ![0, 0] _ slices_S4096x4096_S7x4096_0_0 _ (ix2 (n0 := 4096) (n1 := 4096) (row7 k) h)
    (fun a => match a with
      | ⟨0, _⟩ => by show k.val = 0 + k.val; omega
      | ⟨1, _⟩ => by show h.val = 0 + h.val; omega)

end Cert.KernelSide

end
-- ==== Proof.Blocks.lean ====
/-
  From blocks to the array. The grid has 36 points; point t takes rows 1024·t … 1024·t + 1023 of the flat
  input, all seven kept rows of the matrix, and writes rows 1024·t … 1024·t + 1023 of the flat output. Each
  written block is the matching block of one whole-array function, the flat product `rowsTimes`, and the 36
  blocks cover all 36864 rows, so the flat output ends holding `rowsTimes` of the two arrays the region found.
-/
import proofs.«419999_j20418274525913_3_alg».proof.Proof.Gen.KernelIdeal.Frame
import proofs.«419999_j20418274525913_3_alg».proof.Proof.Payload
import proofs.«419999_j20418274525913_3_alg».proof.Proof.HostSide

set_option maxRecDepth 16384

noncomputable section

open scoped BigOperators

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen Cert.MatSpec

variable (m : (ℓ : Loc nD τ sig) → Buf (Elt Ideal) ℓ)

theorem zero_offsets : (![0, 0] : Fin 2 → Nat) = fun _ => 0 := funext fun a => by fin_cases a <;> rfl

/-- The printed index maps over the grid: the input rows' block and the output rows' block are both block t;
    every other block index is zero. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the flat product of the two arrays as the region finds them. -/
theorem flushed_eq (c : Dev nD) (t : Fin cfg0.N) :
    (dats m 0 c).flushed 2 t
      = ((cfg0.win 2).blk t).view.read (Elt Ideal) (rowsTimes (flatIn m c) (keptRows m c)) := by
  show (cfg0.win 2).cut (grid0.coords t) ((dats m 0 c).after 2 t) = _
  rw [after0_2]
  unfold out0_2
  rw [View.canon_unit_zero zero_offsets]
  simp only [View.ld_unit_zero (S := S1024x7) zero_offsets, View.ld_unit_zero (S := S7x4096) zero_offsets]
  rw [payload_eq]
  obtain ⟨e0, e1, e2, e3, e4, e5⟩ := index_facts t
  funext j
  show (∑ k : Fin 7, flatIn m c (((cfg0.win 0).blk t).view.emb (ix2 (n0 := 1024) (n1 := 7) (j 0) k))
        * keptRows m c (((cfg0.win 1).blk t).view.emb (ix2 (n0 := 7) (n1 := 4096) k (j 1))))
      = ∑ k : Fin 7, flatIn m c (ix2 (n0 := 36864) (n1 := 7) ((((cfg0.win 2).blk t).view.emb j) 0) k)
        * keptRows m c (ix2 (n0 := 7) (n1 := 4096) k ((((cfg0.win 2).blk t).view.emb j) 1))
  refine Finset.sum_congr rfl fun k _ => ?_
  have h0 : ((cfg0.win 0).blk t).view.emb (ix2 (n0 := 1024) (n1 := 7) (j 0) k)
      = ix2 (n0 := 36864) (n1 := 7) ((((cfg0.win 2).blk t).view.emb j) 0) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 7 + 1 * k.val = k.val; omega
  have h1 : ((cfg0.win 1).blk t).view.emb (ix2 (n0 := 7) (n1 := 4096) k (j 1))
      = ix2 (n0 := 7) (n1 := 4096) k ((((cfg0.win 2).blk t).view.emb j) 1) := by
    funext a; apply Fin.ext
    match a with
    | ⟨0, _⟩ => show win0_1.index t (0 : Fin 2) * 7 + 1 * k.val = k.val; omega
    | ⟨1, _⟩ => show win0_1.index t (1 : Fin 2) * 4096 + 1 * (j 1).val = win0_2.index t (1 : Fin 2) * 4096 + 1 * (j 1).val; omega
  rw [h0, h1]

/-- An index of the flat output is in point t's block iff each coordinate is in the block's range on its axis. -/
theorem mem_blk (t : Fin cfg0.N) (i : S36864x4096.Idx) :
    i ∈ ((cfg0.win 2).blk t).view.set ↔ ∀ a : Fin 2, win0_2.index t a * S1024x4096.size a ≤ (i a).val ∧ (i a).val < win0_2.index t a * S1024x4096.size a + S1024x4096.size a := by
  show i ∈ ((View.whole main_v2).slice (win0_2.rect t)).set ↔ _
  rw [View.set_slice_whole, Rect.mem_set_unit]
  exact Iff.rfl

/-- Row r of the flat output is written by point r / 1024. -/
theorem covered (i : S36864x4096.Idx) :
    ∃ t : Fin cfg0.N, (cfg0.win 2).flush t = true ∧ i ∈ ((cfg0.win 2).blk t).view.set := by
  have hi0 : (i 0).val < 36864 := (i 0).isLt
  have hi1 : (i 1).val < 4096 := (i 1).isLt
  have hN : cfg0.N = 36 := N_0
  let t : Fin cfg0.N := ⟨(i 0).val / 1024, by rw [hN]; omega⟩
  obtain ⟨e0, e1, e2, e3, e4, e5⟩ := index_facts t
  have ht : t.val = (i 0).val / 1024 := rfl
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 4096 ≤ (i 1).val ∧ (i 1).val < win0_2.index t (1 : Fin 2) * 4096 + 4096; omega

/-- The flat output after the region: the flat product of the two arrays the region found. -/
theorem flat_final (c : Dev nD) :
    (dats m 0 c).arrAt 2 cfg0.N = rowsTimes (flatIn m c) (keptRows m c) :=
  (dats m 0 c).arrAt_eq_of_cover 2 _ (fun t _ => flushed_eq m c t) covered

end Cert.KernelSide

end
-- ==== Proof.KernelValue.lean ====
/-
  The kernel's result. After the region the program folds the flat [36864, 4096] output back to [64, 576, 4096]:
  entry (b, t, h) of the result is entry (b·576 + t, h) of the flat output, which is the flat product there,
  which is the sum over k < 7 of x[b, t, k] · a[k, h].
-/
import proofs.«419999_j20418274525913_3_alg».proof.Proof.Blocks
import proofs.«419999_j20418274525913_3_alg».proof.Proof.HostSide

set_option maxRecDepth 16384

noncomputable section

namespace Cert.KernelSide

open Idealize.ShloMosaic Idealize.ShloMosaic.TcCoe Idealize.ShloMosaic.ValueIdx Idealize.SL.Sem Idealize.ShloMosaic.StableHlo
open Cert.KernelIdeal Cert.KernelIdeal.Gen Cert.MatSpec

variable (m : (ℓ : Loc nD τ sig) → Buf (Elt Ideal) ℓ) (ρ : Dev nD → PrngReg)

/-- The flat output as the lines after the region find it: the flat product. -/
theorem flatOut_eq (c : Dev nD) :
    Pipeline.withArrays spec0 c (V0 m c) (fun w => (dats m 0 c).arrAt w cfg0.N) (Proc.devRef .tc main_v2)
      = rowsTimes (flatIn m c) (keptRows m c) :=
  (Pipeline.withArrays_arr spec0 launch0.win.arr_inj c _ _ 2).trans (flat_final m c)

/-- The program's result is `project` of its two arguments. -/
theorem result_eq (c : Dev nD) :
    Pipeline.afterTail₀ cfgs (dats m) 0 (V0 m) [hostOps1] c main_v3
      = project (m ((c : Thread nD τ).loc main_arg0)) (m ((c : Thread nD τ).loc main_arg1)) := by
  unfold Pipeline.afterTail₀
  show StableHlo.after hostOps1 _ (Proc.devRef .tc main_v3) = _
  after_results
  funext i
  obtain ⟨b, t, h, rfl⟩ : ∃ (b : Fin 64) (t : Fin 576) (h : Fin 4096), i = ix3 b t h := ⟨i 0, i 1, i 2, eq_ix3 i⟩
  refine (shapeCast_apply _ _ _ (ix2 (n0 := 36864) (n1 := 4096) (flatRow b t) h) ?_).trans ?_
  · show ((⟨2, ![36864, 4096]⟩ : Shape).rowMajor (ix2 (n0 := 36864) (n1 := 4096) (flatRow b t) h)).val
      = ((⟨3, ![64, 576, 4096]⟩ : Shape).rowMajor (ix3 (n0 := 64) (n1 := 576) (n2 := 4096) b t h)).val
    rw [Shape.rowMajor_val_two, Shape.rowMajor_val_three]
    rfl
  · rw [flatOut_eq]
    exact rowsTimes_flat _ _ _ _ (flatInput_apply m c) (keptRows_apply m c) b t h

/-- Every weakly fair execution of the kernel's program ends with the result at `project` of the arguments and
    the arguments unchanged. -/
theorem run : θ_run defs (onTc (τ := τ) (main (F := Ideal))) ⟨m, fun _ => 0, ρ⟩ fun r => ∀ c : Dev nD,
      r.2.mem ((c.tc : Thread nD τ).loc main_v3) = project (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelSide

end
-- ==== Proof.lean ====
/-
  The kernel multiplies a [64, 576, 7] input, flattened to [36864, 7], by the first seven rows of a
  [4096, 4096] matrix, 1024 rows per grid point, and folds the product back to [64, 576, 4096]; the reference
  contracts the input's last axis against the same seven rows in one step. On the extended reals both results
  are, at (b, t, h), the sum over k < 7 of x[b, t, k] · a[k, h] (`Cert.MatSpec.project`): the narrowing to
  bf16 before the kernel's product changes nothing there, the product accumulates into zero, and the same seven
  terms are summed on both sides, so no finiteness of the inputs is used. Nothing was rewritten in the
  idealization, so that claim is trivial.
-/
import proofs.«419999_j20418274525913_3_alg».proof.Defs
import proofs.«419999_j20418274525913_3_alg».proof.Proof.Gen.Kernel
import proofs.«419999_j20418274525913_3_alg».proof.Proof.Gen.Kernel.Frame
import proofs.«419999_j20418274525913_3_alg».proof.Proof.Gen.KernelIdeal
import proofs.«419999_j20418274525913_3_alg».proof.Proof.Gen.KernelIdeal.Frame
import proofs.«419999_j20418274525913_3_alg».proof.Proof.Gen.ReferenceIdeal
import proofs.«419999_j20418274525913_3_alg».proof.Proof.Gen.ReferenceIdeal.Run
import proofs.«419999_j20418274525913_3_alg».proof.Proof.Gen.ReferenceIdeal.Read
import proofs.«419999_j20418274525913_3_alg».proof.Proof.Gen.Pre_finite_inputs
import proofs.«419999_j20418274525913_3_alg».proof.Proof.RefSide
import proofs.«419999_j20418274525913_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at `project` of arguments that agree. -/
theorem algebraic : Cert.algebraic_KernelIdeal_ReferenceIdeal := by
  intro m ρ m' ρ' _ hagree
  refine ⟨fun c => Cert.MatSpec.project (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.RefSide.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
